-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1 .f32) (main_arg13 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1 .f32 := Host.absf main_arg12
  let main_cst_22 : FVec F S_ .f32 := constant S_ .f32 0x7F800000#32
  let main_v60 : FVec F S1024x1 .f32 := broadcastInDim S1024x1 ![] bcast_S_S1024x1 main_cst_22
  let main_v61 : IVec S1024x1 1 := cmpf .olt main_v59 main_v60
  let main_c_23 : IVec S_ 1 := constantI S_ 1 1#1
  let main_v62 : IVec S_ 1 := (fun x v => Host.reduce IntOp.andi x v reducesTo_S1024x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S1024 .f32) (main_arg8 : FVec F S1024 .f32) (main_arg9 : FVec F S1024x1024 .f32) (main_arg10 : FVec F S1024 .f32) (main_arg11 : FVec F S1024 .f32) (main_arg12 : FVec F S1024x1 .f32) (main_arg13 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024 .f32) (main_arg12 : FVec F S1024x1 .f32) (main_arg13 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x512 .f32) (main_arg1 : FVec F S512x1024 .f32) (main_arg2 : FVec F S1024 .f32) (main_arg3 : FVec F S1024x1024 .f32) (main_arg4 : FVec F S1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024 .f32) (main_arg12 : FVec F S1024x1 .f32) (main_arg13 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S1x1024 : Shape := ⟨2, ![1, 1024]⟩
abbrev S1x1 : Shape := ⟨2, ![1, 1]⟩
abbrev S65536x1 : Shape := ⟨2, ![65536, 1]⟩
abbrev S512x512 : Shape := ⟨2, ![512, 512]⟩
abbrev S512x1 : Shape := ⟨2, ![512, 1]⟩
abbrev S512 : Shape := ⟨1, ![512]⟩

abbrev nBuf : Space → Nat
  | .hbm => 28
  | .vmem => 17
  | .smem => 0
  | _ => 0

abbrev bufTy : (tb : Table) → Fin (tcTables nBuf tb) → BufTy
  | .hbm, ⟨0, _⟩ => ⟨S65536x512, .f32⟩
  | .hbm, ⟨1, _⟩ => ⟨S512x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S512x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1, .f32⟩
  | .hbm, ⟨27, _⟩ => ⟨S65536x1, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1, .bf16⟩
  | .local _ .vmem, ⟨14, _⟩ => ⟨S1x1, .f32⟩
  | .local _ .vmem, ⟨15, _⟩ => ⟨S512x1, .f32⟩
  | .local _ .vmem, ⟨16, _⟩ => ⟨S512x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S1024_S1x1024 : S1024.ShapeCasts S1x1024
  shapeCasts_S1_S1x1 : S1.ShapeCasts S1x1
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S1024x1.size a
  hwx0_12 : ∀ i : grid0.Coords, EltTy.bits .bf16 = 32 ∨ (Rect.block (s := S1024x1) S1024x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S65536x1.size a
  hwx0_14 : ∀ i : grid0.Coords, EltTy.bits .f32 = 32 ∨ (Rect.block (s := S65536x1) S512x1.size (cc0_transform_14 i) (hinb0_14 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1024x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S512x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S65536x1024 : Shape := ⟨2, ![65536, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S65536x1024, .f32⟩
  | .hbm, ⟨15, _⟩ => ⟨S1x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x1024, .f32⟩
  | .hbm, ⟨71, _⟩ => ⟨S65536x1024, .f32⟩
  | .hbm, ⟨72, _⟩ => ⟨S_, .f32⟩
  | .hbm, ⟨73, _⟩ => ⟨S65536x1, .f32⟩
  | .hbm, ⟨74, _⟩ => ⟨S65536x1, .f32⟩
  | .hbm, ⟨75, _⟩ => ⟨S65536x1, .f32⟩
  | .hbm, ⟨76, _⟩ => ⟨S65536x1024, .f32⟩
  | .hbm, ⟨77, _⟩ => ⟨S65536x1024, .f32⟩
  | .hbm, ⟨78, _⟩ => ⟨S1x1024, .f32⟩
  | .hbm, ⟨79, _⟩ => ⟨S65536x1024, .f32⟩
  | .hbm, ⟨80, _⟩ => ⟨S65536x1024, .f32⟩
  | .hbm, ⟨81, _⟩ => ⟨S1x1024, .f32⟩
  | .hbm, ⟨82, _⟩ => ⟨S65536x1024, .f32⟩
  | .hbm, ⟨83, _⟩ => ⟨S65536x1024, .f32⟩
  | .hbm, ⟨84, _⟩ => ⟨S_, .f32⟩
  | .hbm, ⟨85, _⟩ => ⟨S65536x1024, .f32⟩
  | .hbm, ⟨86, _⟩ => ⟨S65536x1024, .f32⟩
  | .hbm, ⟨87, _⟩ => ⟨S65536x1024, .f32⟩
  | .hbm, ⟨88, _⟩ => ⟨S_, .f32⟩
  | .hbm, ⟨89, _⟩ => ⟨S65536, .f32⟩
  | .hbm, ⟨90, _⟩ => ⟨S65536x1, .f32⟩
  | .hbm, ⟨91, _⟩ => ⟨S_, .f32⟩
  | .hbm, ⟨92, _⟩ => ⟨S65536x1, .f32⟩
  | .hbm, ⟨93, _⟩ => ⟨S65536x1, .f32⟩
  | .hbm, ⟨94, _⟩ => ⟨S65536x1024, .f32⟩
  | .hbm, ⟨95, _⟩ => ⟨S65536x1024, .f32⟩
  | .hbm, ⟨96, _⟩ => ⟨S65536x1024, .f32⟩
  | .hbm, ⟨97, _⟩ => ⟨S_, .f32⟩
  | .hbm, ⟨98, _⟩ => ⟨S65536, .f32⟩
  | .hbm, ⟨99, _⟩ => ⟨S65536x1, .f32⟩
  | .hbm, ⟨100, _⟩ => ⟨S_, .f32⟩
  | .hbm, ⟨101, _⟩ => ⟨S65536x1, .f32⟩
  | .hbm, ⟨102, _⟩ => ⟨S65536x1, .f32⟩
  | .hbm, ⟨103, _⟩ => ⟨S65536x1024, .f32⟩
  | .hbm, ⟨104, _⟩ => ⟨S65536x1024, .f32⟩
  | .hbm, ⟨105, _⟩ => ⟨S_, .f32⟩
  | .hbm, ⟨106, _⟩ => ⟨S65536x1, .f32⟩
  | .hbm, ⟨107, _⟩ => ⟨S65536x1, .f32⟩
  | .hbm, ⟨108, _⟩ => ⟨S65536x1, .f32⟩
  | .hbm, ⟨109, _⟩ => ⟨S65536x1024, .f32⟩
  | .hbm, ⟨110, _⟩ => ⟨S65536x1024, .f32⟩
  | .hbm, ⟨111, _⟩ => ⟨S1x1024, .f32⟩
  | .hbm, ⟨112, _⟩ => ⟨S65536x1024, .f32⟩
  | .hbm, ⟨113, _⟩ => ⟨S65536x1024, .f32⟩
  | .hbm, ⟨114, _⟩ => ⟨S1x1024, .f32⟩
  | .hbm, ⟨115, _⟩ => ⟨S65536x1024, .f32⟩
  | .hbm, ⟨116, _⟩ => ⟨S65536x1024, .f32⟩
  | .hbm, ⟨117, _⟩ => ⟨S_, .f32⟩
  | .hbm, ⟨118, _⟩ => ⟨S65536x1024, .f32⟩
  | .hbm, ⟨119, _⟩ => ⟨S65536x1024, .f32⟩
  | .hbm, ⟨120, _⟩ => ⟨S65536x1, .f32⟩
  | .hbm, ⟨121, _⟩ => ⟨S1x1, .f32⟩
  | .hbm, ⟨122, _⟩ => ⟨S65536x1, .f32⟩
  | .hbm, ⟨123, _⟩ => ⟨S65536x1, .f32⟩
  | .hbm, ⟨124, _⟩ => ⟨S_, .f32⟩
  | .hbm, ⟨125, _⟩ => ⟨S65536x1, .f32⟩
  | .hbm, ⟨126, _⟩ => ⟨S65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call3_cst : Ref sig .tc := ⟨.hbm, 117, rfl⟩
abbrev main_call3_v0 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call4_cst : Ref sig .tc := ⟨.hbm, 124, rfl⟩
abbrev main_call4_v0 : Ref sig .tc := ⟨.hbm, 125, rfl⟩
abbrev main_v87 : Ref sig .tc := ⟨.hbm, 126, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x512_S512x1024_S65536x1024_1_0_0_1_n_n_wf : DotDims.WF S65536x512 S512x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x1_S65536x1_1_0_0_1_n_n_wf : DotDims.WF S65536x1024 S1024x1 S65536x1 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.RowSpec.lean ====
/-
  One row of the network, on the extended reals.

  Every output row depends on its own input row only: a row of 512 numbers goes through a dense layer with a bias and
  a clamp at zero, then three times through (dense layer, normalisation of the row to mean zero and unit variance, scale,
  shift, clamp at zero), then through a dense layer to ONE number with a bias and a clamp. A dense layer is the sum over
  `k` of the row's entry `k` times the weight matrix's entry `(k, j)`; the mean of a row of 1024 numbers is its sum divided
  by the number the word `0x44800000` denotes, and the variance is the mean of the squared distances to the mean; the
  normalised entry is the distance to the mean times the reciprocal square root of (variance + the number the word
  `0x358637BD` denotes). The three words are kept as words: both programs spell the same ones, so they are never
  evaluated. `G` is the whole result array as a function of the fourteen argument arrays: row `r` of the result is the
  row function of row `r` of the first argument.
-/
import Idealize.ShloMosaic.PureOps.Ideal
import Idealize.ShloMosaic.Lib.ValueIdx

noncomputable section

namespace Cert.RowMlp

open Idealize.ShloMosaic Idealize.ShloMosaic.ValueIdx

/-- The number the zero word denotes. -/
abbrev wZero : EReal := Ideal.ofBits .f32 0x00000000#32
/-- The number the row length's word denotes. -/
abbrev wWidth : EReal := Ideal.ofBits .f32 0x44800000#32
/-- The number the variance offset's word denotes. -/
abbrev wEps : EReal := Ideal.ofBits .f32 0x358637BD#32

/-- Row `r` of a rank-2 array. -/
def rowOf {n0 n1 : ℕ} (a : (⟨2, ![n0, n1]⟩ : Shape).Idx → EReal) (r : Fin n0) : Fin n1 → EReal := fun k => a (ix2 r k)
/-- A rank-2 array by its two coordinates. -/
def matOf {n0 n1 : ℕ} (a : (⟨2, ![n0, n1]⟩ : Shape).Idx → EReal) : Fin n0 → Fin n1 → EReal := fun k j => a (ix2 k j)
/-- A rank-1 array by its coordinate. -/
def vecOf {n : ℕ} (a : (⟨1, ![n]⟩ : Shape).Idx → EReal) : Fin n → EReal := fun k => a (ix1 k)

/-- A dense layer without bias: entry `j` is the sum over `k` of `h k * W k j`. -/
def dense {K N : ℕ} (h : Fin K → EReal) (W : Fin K → Fin N → EReal) : Fin N → EReal := fun j => ∑ k : Fin K, h k * W k j
/-- Entrywise sum with a bias row. -/
def shift {N : ℕ} (y b : Fin N → EReal) : Fin N → EReal := fun j => y j + b j
/-- Entrywise product with a gain row. -/
def scale {N : ℕ} (y g : Fin N → EReal) : Fin N → EReal := fun j => y j * g j
/-- Entrywise maximum with zero. -/
def relu {N : ℕ} (y : Fin N → EReal) : Fin N → EReal := fun j => max (y j) wZero
/-- The sum of a row divided by the row length's number. -/
def mean {N : ℕ} (y : Fin N → EReal) : EReal := Ideal.div (∑ k : Fin N, y k) wWidth
/-- Each entry's distance to the row's mean. -/
def centred {N : ℕ} (y : Fin N → EReal) : Fin N → EReal := fun j => y j - mean y
/-- The row normalised: distance to the mean times the reciprocal square root of (variance + offset). -/
def normed {N : ℕ} (y : Fin N → EReal) : Fin N → EReal :=
  fun j => centred y j * Ideal.rsqrt (mean (fun k => centred y k * centred y k) + wEps)

/-- One hidden layer: dense, normalise, scale, shift, clamp. -/
def hidden {K N : ℕ} (h : Fin K → EReal) (W : Fin K → Fin N → EReal) (g b : Fin N → EReal) : Fin N → EReal :=
  relu (shift (scale (normed (dense h W)) g) b)

/-- The whole row function. -/
def mlpRow (x : Fin 512 → EReal) (W0 : Fin 512 → Fin 1024 → EReal) (b0 : Fin 1024 → EReal)
    (W1 : Fin 1024 → Fin 1024 → EReal) (g1 be1 : Fin 1024 → EReal)
    (W2 : Fin 1024 → Fin 1024 → EReal) (g2 be2 : Fin 1024 → EReal)
    (W3 : Fin 1024 → Fin 1024 → EReal) (g3 be3 : Fin 1024 → EReal)
    (Wout : Fin 1024 → Fin 1 → EReal) (bout : Fin 1 → EReal) : Fin 1 → EReal :=
  relu (shift (dense (hidden (hidden (hidden (relu (shift (dense x W0) b0)) W1 g1 be1) W2 g2 be2) W3 g3 be3) Wout) bout)

/-- The result array as one function of the argument arrays: at `(r, u)` the row function of row `r`. -/
def G (a0 : (⟨2, ![65536, 512]⟩ : Shape).Idx → EReal) (a1 : (⟨2, ![512, 1024]⟩ : Shape).Idx → EReal) (a2 : (⟨1, ![1024]⟩ : Shape).Idx → EReal)
    (a3 : (⟨2, ![1024, 1024]⟩ : Shape).Idx → EReal) (a4 a5 : (⟨1, ![1024]⟩ : Shape).Idx → EReal)
    (a6 : (⟨2, ![1024, 1024]⟩ : Shape).Idx → EReal) (a7 a8 : (⟨1, ![1024]⟩ : Shape).Idx → EReal)
    (a9 : (⟨2, ![1024, 1024]⟩ : Shape).Idx → EReal) (a10 a11 : (⟨1, ![1024]⟩ : Shape).Idx → EReal)
    (a12 : (⟨2, ![1024, 1]⟩ : Shape).Idx → EReal) (a13 : (⟨1, ![1]⟩ : Shape).Idx → EReal) :
    (⟨2, ![65536, 1]⟩ : Shape).Idx → EReal :=
  fun i => mlpRow (rowOf a0 (i 0)) (matOf a1) (vecOf a2) (matOf a3) (vecOf a4) (vecOf a5) (matOf a6) (vecOf a7) (vecOf a8)
    (matOf a9) (vecOf a10) (vecOf a11) (matOf a12) (vecOf a13) (i 1)

end Cert.RowMlp

end
-- ==== Proof.LibDense.lean ====
/-
  A product of two rank-2 arrays contracted over ONE axis, read at an index given by coordinates.

  A matrix product's element is a sum over the contraction index of the dimension numbers' record, and the record sends
  an output index and a contraction index to one index of each operand. When the record contracts the left operand's
  columns against the right operand's rows — its four coordinate facts `hl0`, `hl1`, `hr0`, `hr1`: the left index is (output row,
  contraction coordinate), the right one (contraction coordinate, output column) — the element at `(p, j)` is the sum over
  `t` of `x (p, t) * w (t, j)`: the contraction index set is re-indexed by its one coordinate. Stated once for any such
  record and any extents, then for the two operations that compute it on the extended reals: a product accumulated into
  the zero splat, and the host's product. The four facts are proved per record (two hold by unfolding the record's
  membership tests, two are the library's `lhsIdx_val_of_single` / `rhsIdx_val_of_single`).
-/
import Idealize.ShloMosaic.Lib.ValueIdx
import Idealize.ShloMosaic.PureOps.Ideal.Laws

namespace Cert.Lib.Dense

open Idealize.ShloMosaic Idealize.ShloMosaic.ValueIdx

/-- The contraction's sum over the record's index set is the sum over the one contracted coordinate. -/
theorem contraction_sum {a k b : ℕ} (D : DotDims ⟨2, ![a, k]⟩ ⟨2, ![k, b]⟩ ⟨2, ![a, b]⟩)
    (hrk : D.contr.rank = 1) (hsz : D.contr.size ⟨0, by omega⟩ = k)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (x : (⟨2, ![a, k]⟩ : Shape).Idx → EReal) (w : (⟨2, ![k, b]⟩ : Shape).Idx → EReal) (p : Fin a) (j : Fin b) :
    ∑ q : D.contr.Idx, x (D.lhsIdx (ix2 p j) q) * w (D.rhsIdx (ix2 p j) q) = ∑ t : Fin k, x (ix2 p t) * w (ix2 t j) := by
  rw [← Equiv.sum_comp (contrEquiv1 D k hrk hsz).symm]
  refine Finset.sum_congr rfl fun t _ => ?_
  have ht := contrEquiv1_symm_val D k hrk hsz t
  have el : D.lhsIdx (ix2 p j) ((contrEquiv1 D k hrk hsz).symm t) = ix2 p t := funext fun ax => Fin.ext (by
    match ax with
    | ⟨0, _⟩ => exact hl0 _ _
    | ⟨1, _⟩ => exact (hl1 _ _).trans ht)
  have er : D.rhsIdx (ix2 p j) ((contrEquiv1 D k hrk hsz).symm t) = ix2 t j := funext fun ax => Fin.ext (by
    match ax with
    | ⟨0, _⟩ => exact (hr0 _ _).trans ht
    | ⟨1, _⟩ => exact hr1 _ _)
  rw [el, er]

/-- A product accumulated into the zero splat, on the extended reals, at `(p, j)`. -/
theorem matmul_zero_apply {a k b : ℕ} {φ₁ φ₂ : FTy} (D : DotDims ⟨2, ![a, k]⟩ ⟨2, ![k, b]⟩ ⟨2, ![a, b]⟩)
    (hrk : D.contr.rank = 1) (hsz : D.contr.size ⟨0, by omega⟩ = k)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (x : FVec Ideal ⟨2, ![a, k]⟩ φ₁) (w : FVec Ideal ⟨2, ![k, b]⟩ φ₂) (p : Fin a) (j : Fin b) :
    matmul D prec x w (constant ⟨2, ![a, b]⟩ .f32 0x00000000#32) (ix2 p j) = ∑ t : Fin k, x (ix2 p t) * w (ix2 t j) := by
  show FloatOps.matmul D prec x w (constant ⟨2, ![a, b]⟩ .f32 0x00000000#32) (ix2 p j) = _
  rw [Ideal.matmul_constant_zero_apply]
  exact contraction_sum D hrk hsz hl0 hl1 hr0 hr1 x w p j

/-- The host's product, on the extended reals, at `(p, j)`. -/
theorem dotGeneral_apply {a k b : ℕ} {φ₁ φ₂ : FTy} (D : DotDims ⟨2, ![a, k]⟩ ⟨2, ![k, b]⟩ ⟨2, ![a, b]⟩)
    (hrk : D.contr.rank = 1) (hsz : D.contr.size ⟨0, by omega⟩ = k)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (x : FVec Ideal ⟨2, ![a, k]⟩ φ₁) (w : FVec Ideal ⟨2, ![k, b]⟩ φ₂) (p : Fin a) (j : Fin b) :
    Host.dotGeneral D prec x w (ix2 p j) = ∑ t : Fin k, x (ix2 p t) * w (ix2 t j) := by
  show FloatOps.dotGeneral D prec .single x w (ix2 p j) = _
  rw [Ideal.dotGeneral_apply]
  exact contraction_sum D hrk hsz hl0 hl1 hr0 hr1 x w p j

end Cert.Lib.Dense
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.KernelRows.lean ====
/-
  The kernel body's arithmetic, block by block and row by row.

  The body works on a block of 512 rows at once. Each of its steps acts on every row independently: a product with a
  weight matrix is, in row `p`, the dense layer of row `p`; the lane sum of a block is the column of the rows' sums, and
  dividing it by the row length gives the column of the rows' means; subtracting that column, broadcast along the rows,
  centres each row; the reciprocal square root of (the column of mean squares + offset), broadcast the same way, scales
  it. A `[1, 1024]` gain or bias is broadcast down the 512 rows, so every row meets the same gain and bias row. A change of
  float format is the identity on the extended reals. So row `p` of what the body stores is the row function of row `p`
  of the first operand's block.

  The printed body is cut into payloads at positions that fall inside a layer; the lemmas below follow the cut: the first
  payload ends after the first hidden layer's scale by the gain (its shift by the bias opens the next payload), the next
  ends at the third hidden layer's product, whose lane sum is a payload of its own, and the last one starts from that
  product and its column of sums.
-/
import proofs.«138843_j83863531422003_1_alg».proof.Proof.Gen.KernelIdeal.Skeleton
import proofs.«138843_j83863531422003_1_alg».proof.Proof.RowSpec
import proofs.«138843_j83863531422003_1_alg».proof.Proof.LibDense
import proofs.«138843_j83863531422003_1_alg».proof.Proof.LibColumn
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.ValueIdx Cert.RowMlp

/-! ## The three products' dimension numbers: the left index is (row, contracted), the right (contracted, column) -/

theorem dotA_l0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem dotA_l1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem dotA_r0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem dotA_r1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem dotB_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotB_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotB_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotB_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem dotC_l0 (i : S512x1.Idx) (q : dot_S512x1024_S1024x1_S512x1_1_0_0_1_n_n.contr.Idx) : (dot_S512x1024_S1024x1_S512x1_1_0_0_1_n_n.lhsIdx i q 0).val = (i 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
theorem dotC_l1 (i : S512x1.Idx) (q : dot_S512x1024_S1024x1_S512x1_1_0_0_1_n_n.contr.Idx) : (dot_S512x1024_S1024x1_S512x1_1_0_0_1_n_n.lhsIdx i q 1).val = (q ⟨0, by decide⟩).val :=
  dot_S512x1024_S1024x1_S512x1_1_0_0_1_n_n.lhsIdx_val_of_single rfl i q
theorem dotC_r0 (i : S512x1.Idx) (q : dot_S512x1024_S1024x1_S512x1_1_0_0_1_n_n.contr.Idx) : (dot_S512x1024_S1024x1_S512x1_1_0_0_1_n_n.rhsIdx i q 0).val = (q ⟨0, by decide⟩).val :=
  dot_S512x1024_S1024x1_S512x1_1_0_0_1_n_n.rhsIdx_val_of_single rfl i q
theorem dotC_r1 (i : S512x1.Idx) (q : dot_S512x1024_S1024x1_S512x1_1_0_0_1_n_n.contr.Idx) : (dot_S512x1024_S1024x1_S512x1_1_0_0_1_n_n.rhsIdx i q 1).val = (i 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl

/-! ## Blocks -/

/-- The first layer on a block: product with the weights, bias row added down the rows, clamp at zero. -/
def layer0 (x0 : FVec Ideal S512x512 .f32) (x1 : FVec Ideal S512x1024 .bf16) (x2 : FVec Ideal S1x1024 .f32) : FVec Ideal S512x1024 .f32 :=
  maximumf (addf (matmul dot_S512x512_S512x1024_S512x1024_1_0_0_1_n_n none (truncf .bf16 x0 bitsLt_bf16_f32) (shapeCast S512x1024 x1 shapeCasts_S512x1024_S512x1024) (constant S512x1024 .f32 0x00000000#32))
    (broadcastTo S512x1024 (shapeCast S1x1024 x2 shapeCasts_S1x1024_S1x1024) broadcasts_S1x1024_S512x1024)) (broadcast S512x1024 (Scalar.ofBits .f32 0x00000000#32))

/-- A hidden layer's product on a block. -/
def mmB (h : FVec Ideal S512x1024 .f32) (w : FVec Ideal S1024x1024 .bf16) : FVec Ideal S512x1024 .f32 :=
  matmul dot_S512x1024_S1024x1024_S512x1024_1_0_0_1_n_n none (truncf .bf16 h bitsLt_bf16_f32) (shapeCast S1024x1024 w shapeCasts_S1024x1024_S1024x1024) (constant S512x1024 .f32 0x00000000#32)

/-- The last layer's product on a block: one column. -/
def mmC (h : FVec Ideal S512x1024 .f32) (w : FVec Ideal S1024x1 .bf16) : FVec Ideal S512x1 .f32 :=
  matmul dot_S512x1024_S1024x1_S512x1_1_0_0_1_n_n none (truncf .bf16 h bitsLt_bf16_f32) (shapeCast S1024x1 w shapeCasts_S1024x1_S1024x1) (constant S512x1 .f32 0x00000000#32)

/-- The column of a block's row sums. -/
def sumCol (v : FVec Ideal S512x1024 .f32) : FVec Ideal S512x1 .f32 :=
  shapeCast S512x1 (multiReduction .add [1] S512 v 0x00000000#32 reduces_S512x1024_S512 (.inl rfl) rfl) shapeCasts_S512_S512x1

/-- A column of sums divided by the row length. -/
def meanCol (s : FVec Ideal S512x1 .f32) : FVec Ideal S512x1 .f32 := divf s (broadcast S512x1 (Scalar.ofBits .f32 0x44800000#32))

/-- A block minus its column of means (from the column of sums `s`), broadcast along the rows. -/
def centredBlock (y : FVec Ideal S512x1024 .f32) (s : FVec Ideal S512x1 .f32) : FVec Ideal S512x1024 .f32 :=
  subf y (broadcastTo S512x1024 (meanCol s) broadcasts_S512x1_S512x1024)

/-- A block normalised row by row, given its column of sums `s`. -/
def normBlock (y : FVec Ideal S512x1024 .f32) (s : FVec Ideal S512x1 .f32) : FVec Ideal S512x1024 .f32 :=
  mulf (centredBlock y s) (broadcastTo S512x1024 (rsqrt (addf (meanCol (sumCol (mulf (centredBlock y s) (centredBlock y s))))
    (broadcast S512x1 (Scalar.ofBits .f32 0x358637BD#32)))) broadcasts_S512x1_S512x1024)

/-- A block times a gain row broadcast down the rows. -/
def scaleBlock (z : FVec Ideal S512x1024 .f32) (g : FVec Ideal S1x1024 .f32) : FVec Ideal S512x1024 .f32 :=
  mulf z (broadcastTo S512x1024 (shapeCast S1x1024 g shapeCasts_S1x1024_S1x1024) broadcasts_S1x1024_S512x1024)

/-- A block plus a bias row broadcast down the rows, clamped at zero. -/
def shiftReluBlock (z : FVec Ideal S512x1024 .f32) (b : FVec Ideal S1x1024 .f32) : FVec Ideal S512x1024 .f32 :=
  maximumf (addf z (broadcastTo S512x1024 b broadcasts_S1x1024_S512x1024)) (broadcast S512x1024 (Scalar.ofBits .f32 0x00000000#32))

/-! ## Each block, row by row -/

theorem bcastRow_apply (v : FVec Ideal S1x1024 .f32) (p : Fin 512) (j : Fin 1024) :
    broadcastTo S512x1024 v broadcasts_S1x1024_S512x1024 (ix2 p j) = rowOf v 0 j :=
  broadcastTo_1b_ab_apply v _ p j

theorem castRow_eq (v : FVec Ideal S1x1024 .f32) : shapeCast S1x1024 v shapeCasts_S1x1024_S1x1024 = v :=
  Idealize.ShloMosaic.shapeCast_self v _

theorem layer0_row (x0 : FVec Ideal S512x512 .f32) (x1 : FVec Ideal S512x1024 .bf16) (x2 : FVec Ideal S1x1024 .f32) (p : Fin 512) :
    rowOf (layer0 x0 x1 x2) p = relu (shift (dense (rowOf x0 p) (matOf x1)) (rowOf x2 0)) := by
  funext j
  show max (matmul dot_S512x512_S512x1024_S512x1024_1_0_0_1_n_n none (truncf .bf16 x0 bitsLt_bf16_f32) (shapeCast S512x1024 x1 shapeCasts_S512x1024_S512x1024) (constant S512x1024 .f32 0x00000000#32) (ix2 p j)
    + broadcastTo S512x1024 (shapeCast S1x1024 x2 shapeCasts_S1x1024_S1x1024) broadcasts_S1x1024_S512x1024 (ix2 p j)) wZero = _
  rw [Cert.Lib.Dense.matmul_zero_apply dot_S512x512_S512x1024_S512x1024_1_0_0_1_n_n rfl rfl dotA_l0 dotA_l1 dotA_r0 dotA_r1, bcastRow_apply, castRow_eq,
    Idealize.ShloMosaic.shapeCast_self x1]
  rfl

theorem mmB_row (h : FVec Ideal S512x1024 .f32) (w : FVec Ideal S1024x1024 .bf16) (p : Fin 512) :
    rowOf (mmB h w) p = dense (rowOf h p) (matOf w) := by
  funext j
  show matmul dot_S512x1024_S1024x1024_S512x1024_1_0_0_1_n_n none (truncf .bf16 h bitsLt_bf16_f32) (shapeCast S1024x1024 w shapeCasts_S1024x1024_S1024x1024) (constant S512x1024 .f32 0x00000000#32) (ix2 p j) = _
  rw [Cert.Lib.Dense.matmul_zero_apply dot_S512x1024_S1024x1024_S512x1024_1_0_0_1_n_n rfl rfl dotB_l0 dotB_l1 dotB_r0 dotB_r1, Idealize.ShloMosaic.shapeCast_self w]
  rfl

theorem mmC_row (h : FVec Ideal S512x1024 .f32) (w : FVec Ideal S1024x1 .bf16) (p : Fin 512) :
    rowOf (mmC h w) p = dense (rowOf h p) (matOf w) := by
  funext j
  show matmul dot_S512x1024_S1024x1_S512x1_1_0_0_1_n_n none (truncf .bf16 h bitsLt_bf16_f32) (shapeCast S1024x1 w shapeCasts_S1024x1_S1024x1) (constant S512x1 .f32 0x00000000#32) (ix2 p j) = _
  rw [Cert.Lib.Dense.matmul_zero_apply dot_S512x1024_S1024x1_S512x1_1_0_0_1_n_n rfl rfl dotC_l0 dotC_l1 dotC_r0 dotC_r1, Idealize.ShloMosaic.shapeCast_self w]
  rfl

theorem sumCol_apply (v : FVec Ideal S512x1024 .f32) (p : Fin 512) (u : Fin 1) : sumCol v (ix2 p u) = ∑ k : Fin 1024, v (ix2 p k) := by
  unfold sumCol
  refine (Cert.Lib.Column.shapeCast_a_a1_apply _ shapeCasts_S512_S512x1 p u).trans ?_
  exact Cert.Lib.Column.rowSum_apply v 0x00000000#32 reduces_S512x1024_S512 (.inl rfl) rfl p

theorem meanCol_sumCol_apply (v : FVec Ideal S512x1024 .f32) (p : Fin 512) (u : Fin 1) : meanCol (sumCol v) (ix2 p u) = mean (rowOf v p) := by
  show Ideal.div (sumCol v (ix2 p u)) wWidth = _
  rw [sumCol_apply]
  rfl

theorem centredBlock_apply (y : FVec Ideal S512x1024 .f32) (p : Fin 512) (j : Fin 1024) :
    centredBlock y (sumCol y) (ix2 p j) = centred (rowOf y p) j := by
  show y (ix2 p j) - broadcastTo S512x1024 (meanCol (sumCol y)) broadcasts_S512x1_S512x1024 (ix2 p j) = _
  rw [Cert.Lib.Column.broadcastTo_a1_ab_apply, meanCol_sumCol_apply]
  rfl

theorem normBlock_row (y : FVec Ideal S512x1024 .f32) (p : Fin 512) : rowOf (normBlock y (sumCol y)) p = normed (rowOf y p) := by
  funext j
  show centredBlock y (sumCol y) (ix2 p j) * broadcastTo S512x1024 (rsqrt (addf (meanCol (sumCol (mulf (centredBlock y (sumCol y)) (centredBlock y (sumCol y)))))
    (broadcast S512x1 (Scalar.ofBits .f32 0x358637BD#32)))) broadcasts_S512x1_S512x1024 (ix2 p j) = _
  rw [Cert.Lib.Column.broadcastTo_a1_ab_apply, centredBlock_apply]
  show centred (rowOf y p) j * Ideal.rsqrt (meanCol (sumCol (mulf (centredBlock y (sumCol y)) (centredBlock y (sumCol y)))) (ix2 p (0 : Fin 1)) + wEps) = _
  rw [meanCol_sumCol_apply]
  have hsq : rowOf (mulf (centredBlock y (sumCol y)) (centredBlock y (sumCol y))) p = fun k => centred (rowOf y p) k * centred (rowOf y p) k :=
    funext fun k => by
      show centredBlock y (sumCol y) (ix2 p k) * centredBlock y (sumCol y) (ix2 p k) = _
      rw [centredBlock_apply]
  rw [hsq]
  rfl

theorem scaleBlock_row (z : FVec Ideal S512x1024 .f32) (g : FVec Ideal S1x1024 .f32) (p : Fin 512) :
    rowOf (scaleBlock z g) p = scale (rowOf z p) (rowOf g 0) := by
  funext j
  show z (ix2 p j) * broadcastTo S512x1024 (shapeCast S1x1024 g shapeCasts_S1x1024_S1x1024) broadcasts_S1x1024_S512x1024 (ix2 p j) = _
  rw [bcastRow_apply, castRow_eq]
  rfl

theorem shiftReluBlock_row (z : FVec Ideal S512x1024 .f32) (b : FVec Ideal S1x1024 .f32) (p : Fin 512) :
    rowOf (shiftReluBlock z b) p = relu (shift (rowOf z p) (rowOf b 0)) := by
  funext j
  show max (z (ix2 p j) + broadcastTo S512x1024 b broadcasts_S1x1024_S512x1024 (ix2 p j)) wZero = _
  rw [bcastRow_apply]
  rfl

end Cert.KernelIdeal.Rows

end
-- ==== Proof.KernelBody.lean ====
/-
  The kernel body's stored value, row by row.

  The printed body's five payloads are compositions of the blocks of the previous module: the first ends after the first
  hidden layer's scale by its gain; the second is that layer's bias row; the third adds the bias, clamps, and runs the
  second hidden layer and the third layer's product; the fourth is that product's column of row sums; the last
  normalises the product with that column, scales, shifts, clamps, and applies the output layer. Composing the blocks'
  row lemmas along that chain, row `p` of the stored `[512, 1]` block is the row function of row `p` of the first operand's
  block, with the other operands as its weights, gains and biases.
-/
import proofs.«138843_j83863531422003_1_alg».proof.Proof.KernelRows

noncomputable section

namespace Cert.KernelIdeal.Rows

open Cert.KernelIdeal Cert.KernelIdeal.Gen Idealize.ShloMosaic Idealize.ShloMosaic.ValueIdx Cert.RowMlp

/-- The output layer's column plus the one-entry bias broadcast down the rows, clamped at zero. -/
def outBlock (z : FVec Ideal S512x1 .f32) (b : FVec Ideal S1x1 .f32) : FVec Ideal S512x1 .f32 :=
  maximumf (addf z (broadcastTo S512x1 (shapeCast S1x1 b shapeCasts_S1x1_S1x1) broadcasts_S1x1_S512x1)) (broadcast S512x1 (Scalar.ofBits .f32 0x00000000#32))

theorem outBlock_row (z : FVec Ideal S512x1 .f32) (b : FVec Ideal S1x1 .f32) (p : Fin 512) :
    rowOf (outBlock z b) p = relu (shift (rowOf z p) (rowOf b 0)) := by
  funext u
  show max (z (ix2 p u) + broadcastTo S512x1 (shapeCast S1x1 b shapeCasts_S1x1_S1x1) broadcasts_S1x1_S512x1 (ix2 p u)) wZero = _
  rw [broadcastTo_1b_ab_apply, Idealize.ShloMosaic.shapeCast_self b]
  rfl

/-! ## The payloads are compositions of the blocks -/

theorem pay2_eq (x0 : FVec Ideal S512x512 .f32) (x1 : FVec Ideal S512x1024 .bf16) (x2 : FVec Ideal S1x1024 .f32)
    (x3 : FVec Ideal S1024x1024 .bf16) (x4 : FVec Ideal S1x1024 .f32) :
    k0_pay2 x0 x1 x2 x3 x4 = scaleBlock (normBlock (mmB (layer0 x0 x1 x2) x3) (sumCol (mmB (layer0 x0 x1 x2) x3))) x4 := rfl

theorem pay3_eq (x5 : FVec Ideal S1x1024 .f32) : k0_pay3 x5 = shapeCast S1x1024 x5 shapeCasts_S1x1024_S1x1024 := rfl

theorem pay4_eq (v36 : FVec Ideal S512x1024 .f32) (v38 : FVec Ideal S1x1024 .f32) (x6 : FVec Ideal S1024x1024 .bf16)
    (x7 x8 : FVec Ideal S1x1024 .f32) (x9 : FVec Ideal S1024x1024 .bf16) :
    k0_pay4 v36 v38 x6 x7 x8 x9
      = mmB (shiftReluBlock (scaleBlock (normBlock (mmB (shiftReluBlock v36 v38) x6) (sumCol (mmB (shiftReluBlock v36 v38) x6))) x7)
          (shapeCast S1x1024 x8 shapeCasts_S1x1024_S1x1024)) x9 := rfl

theorem pay5_eq (v36 : FVec Ideal S512x1024 .f32) (v38 : FVec Ideal S1x1024 .f32) (x6 : FVec Ideal S1024x1024 .bf16)
    (x7 x8 : FVec Ideal S1x1024 .f32) (x9 : FVec Ideal S1024x1024 .bf16) :
    k0_pay5 v36 v38 x6 x7 x8 x9 = sumCol (k0_pay4 v36 v38 x6 x7 x8 x9) := rfl

theorem pay1_eq (v78 : FVec Ideal S512x1024 .f32) (v80 : FVec Ideal S512x1 .f32) (x10 x11 : FVec Ideal S1x1024 .f32)
    (x12 : FVec Ideal S1024x1 .bf16) (x13 : FVec Ideal S1x1 .f32) :
    k0_pay1 v78 v80 x10 x11 x12 x13
      = outBlock (mmC (shiftReluBlock (scaleBlock (normBlock v78 v80) x10) (shapeCast S1x1024 x11 shapeCasts_S1x1024_S1x1024)) x12) x13 := rfl

/-! ## The stored block, row by row -/

/-- Row `p` of the block the body stores is the row function of row `p` of the first operand's block. -/
theorem body_row (x0 : FVec Ideal S512x512 .f32) (x1 : FVec Ideal S512x1024 .bf16) (x2 : FVec Ideal S1x1024 .f32)
    (x3 : FVec Ideal S1024x1024 .bf16) (x4 x5 : FVec Ideal S1x1024 .f32) (x6 : FVec Ideal S1024x1024 .bf16) (x7 x8 : FVec Ideal S1x1024 .f32)
    (x9 : FVec Ideal S1024x1024 .bf16) (x10 x11 : FVec Ideal S1x1024 .f32) (x12 : FVec Ideal S1024x1 .bf16) (x13 : FVec Ideal S1x1 .f32) (p : Fin 512) :
    rowOf (k0_pay1 (F := Ideal) (k0_pay4 (k0_pay2 x0 x1 x2 x3 x4) (k0_pay3 x5) x6 x7 x8 x9) (k0_pay5 (k0_pay2 x0 x1 x2 x3 x4) (k0_pay3 x5) x6 x7 x8 x9) x10 x11 x12 x13) p
      = mlpRow (rowOf x0 p) (matOf x1) (rowOf x2 0) (matOf x3) (rowOf x4 0) (rowOf x5 0) (matOf x6) (rowOf x7 0) (rowOf x8 0)
          (matOf x9) (rowOf x10 0) (rowOf x11 0) (matOf x12) (rowOf x13 0) := by
  rw [pay5_eq, pay1_eq, outBlock_row, mmC_row, shiftReluBlock_row, scaleBlock_row, normBlock_row,
    pay4_eq, mmB_row, shiftReluBlock_row, scaleBlock_row, normBlock_row, mmB_row, shiftReluBlock_row,
    pay2_eq, scaleBlock_row, normBlock_row, mmB_row, layer0_row, pay3_eq]
  simp only [castRow_eq]
  rfl

end Cert.KernelIdeal.Rows

end
-- ==== Proof.KernelArray.lean ====
/-
  From the blocks to the array: what the kernel's result array holds after the run.

  The grid has 128 points. At point `t` the first operand's window is rows `512 t … 512 t + 511` of the `[65536, 512]` input
  and the result's window is the same rows of the `[65536, 1]` result; every other window is a whole array at block index
  `(0, 0)` — a weight matrix as the host's format change left it (the identity on the extended reals), or a `[1024]` gain
  or bias reshaped to one row — so its block at every point is that array. Point `t` therefore writes back, in row `p` of
  its block, the row function of input row `512 t + p`: block `t` of the array function `G`. The 128 blocks tile the result
  (row `r` is in block `r / 512`), so after the run the result array is `G` of the arguments.
-/
import proofs.«138843_j83863531422003_1_alg».proof.Proof.Gen.KernelIdeal.Value
import proofs.«138843_j83863531422003_1_alg».proof.Proof.KernelBody
import Idealize.ShloMosaic.Lib.StableHlo.Run
import Idealize.ShloMosaic.Lib.ValueLayout

noncomputable section

namespace Cert.KernelIdeal.ArrayValue

open Cert.KernelIdeal Cert.KernelIdeal.Gen Cert.KernelIdeal.Value Cert.KernelIdeal.Rows
open Idealize.ShloMosaic Idealize.ShloMosaic.TcCoe Idealize.SL.Sem Idealize.ShloMosaic.ValueIdx Cert.RowMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The array function of the arguments as launched on core `c`. -/
abbrev Gm (c : Dev nD) : S65536x1.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem lt128 (t : Fin cfg0.N) : t.val < 128 := lt_of_lt_of_eq t.isLt N_0

/-! ## The arrays the region finds: the host's format changes and reshapes of the arguments -/

theorem V_W0 (c : Dev nD) : (V m c main_v0 : S512x1024.Idx → EReal) = (m ((c : Thread nD τ).loc main_arg1)) := by
  dsimp only [Gen.V, Gen.hostOps0]; after_results; rfl
theorem V_W1 (c : Dev nD) : (V m c main_v1 : S1024x1024.Idx → EReal) = (m ((c : Thread nD τ).loc main_arg3)) := by
  dsimp only [Gen.V, Gen.hostOps0]; after_results; rfl
theorem V_W2 (c : Dev nD) : (V m c main_v2 : S1024x1024.Idx → EReal) = (m ((c : Thread nD τ).loc main_arg6)) := by
  dsimp only [Gen.V, Gen.hostOps0]; after_results; rfl
theorem V_W3 (c : Dev nD) : (V m c main_v3 : S1024x1024.Idx → EReal) = (m ((c : Thread nD τ).loc main_arg9)) := by
  dsimp only [Gen.V, Gen.hostOps0]; after_results; rfl
theorem V_Wout (c : Dev nD) : (V m c main_v4 : S1024x1.Idx → EReal) = (m ((c : Thread nD τ).loc main_arg12)) := by
  dsimp only [Gen.V, Gen.hostOps0]; after_results; rfl
theorem V_b0 (c : Dev nD) : (V m c main_v5 : S1x1024.Idx → EReal) = shapeCast S1x1024 (m ((c : Thread nD τ).loc main_arg2)) shapeCasts_S1024_S1x1024 := by
  dsimp only [Gen.V, Gen.hostOps0]; after_results; rfl
theorem V_g1 (c : Dev nD) : (V m c main_v6 : S1x1024.Idx → EReal) = shapeCast S1x1024 (m ((c : Thread nD τ).loc main_arg4)) shapeCasts_S1024_S1x1024 := by
  dsimp only [Gen.V, Gen.hostOps0]; after_results; rfl
theorem V_be1 (c : Dev nD) : (V m c main_v7 : S1x1024.Idx → EReal) = shapeCast S1x1024 (m ((c : Thread nD τ).loc main_arg5)) shapeCasts_S1024_S1x1024 := by
  dsimp only [Gen.V, Gen.hostOps0]; after_results; rfl
theorem V_g2 (c : Dev nD) : (V m c main_v8 : S1x1024.Idx → EReal) = shapeCast S1x1024 (m ((c : Thread nD τ).loc main_arg7)) shapeCasts_S1024_S1x1024 := by
  dsimp only [Gen.V, Gen.hostOps0]; after_results; rfl
theorem V_be2 (c : Dev nD) : (V m c main_v9 : S1x1024.Idx → EReal) = shapeCast S1x1024 (m ((c : Thread nD τ).loc main_arg8)) shapeCasts_S1024_S1x1024 := by
  dsimp only [Gen.V, Gen.hostOps0]; after_results; rfl
theorem V_g3 (c : Dev nD) : (V m c main_v10 : S1x1024.Idx → EReal) = shapeCast S1x1024 (m ((c : Thread nD τ).loc main_arg10)) shapeCasts_S1024_S1x1024 := by
  dsimp only [Gen.V, Gen.hostOps0]; after_results; rfl
theorem V_be3 (c : Dev nD) : (V m c main_v11 : S1x1024.Idx → EReal) = shapeCast S1x1024 (m ((c : Thread nD τ).loc main_arg11)) shapeCasts_S1024_S1x1024 := by
  dsimp only [Gen.V, Gen.hostOps0]; after_results; rfl
theorem V_bout (c : Dev nD) : (V m c main_v12 : S1x1.Idx → EReal) = shapeCast S1x1 (m ((c : Thread nD τ).loc main_arg13)) shapeCasts_S1_S1x1 := by
  dsimp only [Gen.V, Gen.hostOps0]; after_results; rfl

/-- A `[1024]` array reshaped to one row, read as that row, is the array by its coordinate. -/
theorem rowOf_reshape (a : S1024.Idx → EReal) : rowOf (shapeCast S1x1024 a shapeCasts_S1024_S1x1024) 0 = vecOf a :=
  funext fun j => shapeCast_a_1a_apply a shapeCasts_S1024_S1x1024 0 j
theorem rowOf_reshape1 (a : S1.Idx → EReal) : rowOf (shapeCast S1x1 a shapeCasts_S1_S1x1) 0 = vecOf a :=
  funext fun j => shapeCast_a_1a_apply a shapeCasts_S1_S1x1 0 j

/-! ## The index maps over the grid -/

/-- The first operand's and the result's windows sit at block `(t, 0)`. -/
theorem idx_moving : ∀ t : Fin cfg0.N, win0_0.index t (0 : Fin 2) = t.val ∧ win0_0.index t (1 : Fin 2) = 0
    ∧ win0_14.index t (0 : Fin 2) = t.val ∧ win0_14.index t (1 : Fin 2) = 0 :=
  (by decide +kernel : ∀ t : Fin grid0.N, _)

/-- Every other window sits at block `(0, 0)` at every point. -/
theorem idx_resident : ∀ (t : Fin cfg0.N) (a : Fin 2), win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 ∧ win0_9.index t a = 0
    ∧ win0_10.index t a = 0 ∧ win0_11.index t a = 0 ∧ win0_12.index t a = 0 ∧ win0_13.index t a = 0 :=
  (by decide +kernel : ∀ (t : Fin grid0.N) (a : Fin 2), _)

/-! ## The windows' blocks at a point -/

/-- Row `p` of the first operand's block at point `t` is row `512 t + p` of the input. -/
theorem blk0_apply (c : Dev nD) (t : Fin cfg0.N) (p k : Fin 512) :
    iblk m c 0 t (ix2 p k) = (m ((c : Thread nD τ).loc main_arg0)) (ix2 (⟨t.val * 512 + p.val, by have := lt128 t; have := p.isLt; omega⟩ : Fin 65536) k) := by
  show V m c main_arg0 (((cfg0.win 0).blk t).view.emb (ix2 p k)) = _
  rw [V_main_arg0]
  obtain ⟨e0, e1, -, -⟩ := idx_moving t
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

theorem blk1_eq (c : Dev nD) (t : Fin cfg0.N) : (iblk m c 1 t : S512x1024.Idx → EReal) = (m ((c : Thread nD τ).loc main_arg1)) := by
  funext y
  show V m c main_v0 (((cfg0.win 1).blk t).view.emb y) = _
  rw [V_W0]
  refine congrArg _ (funext fun a => Fin.ext ?_)
  exact win0_1.rect_emb_val_of_index_zero t a (idx_resident t a).1 y

theorem blk2_eq (c : Dev nD) (t : Fin cfg0.N) : (iblk m c 2 t : S1x1024.Idx → EReal) = shapeCast S1x1024 (m ((c : Thread nD τ).loc main_arg2)) shapeCasts_S1024_S1x1024 := by
  funext y
  show V m c main_v5 (((cfg0.win 2).blk t).view.emb y) = _
  rw [V_b0]
  refine congrArg _ (funext fun a => Fin.ext ?_)
  exact win0_2.rect_emb_val_of_index_zero t a (idx_resident t a).2.1 y

theorem blk3_eq (c : Dev nD) (t : Fin cfg0.N) : (iblk m c 3 t : S1024x1024.Idx → EReal) = (m ((c : Thread nD τ).loc main_arg3)) := by
  funext y
  show V m c main_v1 (((cfg0.win 3).blk t).view.emb y) = _
  rw [V_W1]
  refine congrArg _ (funext fun a => Fin.ext ?_)
  exact win0_3.rect_emb_val_of_index_zero t a (idx_resident t a).2.2.1 y

theorem blk4_eq (c : Dev nD) (t : Fin cfg0.N) : (iblk m c 4 t : S1x1024.Idx → EReal) = shapeCast S1x1024 (m ((c : Thread nD τ).loc main_arg4)) shapeCasts_S1024_S1x1024 := by
  funext y
  show V m c main_v6 (((cfg0.win 4).blk t).view.emb y) = _
  rw [V_g1]
  refine congrArg _ (funext fun a => Fin.ext ?_)
  exact win0_4.rect_emb_val_of_index_zero t a (idx_resident t a).2.2.2.1 y

theorem blk5_eq (c : Dev nD) (t : Fin cfg0.N) : (iblk m c 5 t : S1x1024.Idx → EReal) = shapeCast S1x1024 (m ((c : Thread nD τ).loc main_arg5)) shapeCasts_S1024_S1x1024 := by
  funext y
  show V m c main_v7 (((cfg0.win 5).blk t).view.emb y) = _
  rw [V_be1]
  refine congrArg _ (funext fun a => Fin.ext ?_)
  exact win0_5.rect_emb_val_of_index_zero t a (idx_resident t a).2.2.2.2.1 y

theorem blk6_eq (c : Dev nD) (t : Fin cfg0.N) : (iblk m c 6 t : S1024x1024.Idx → EReal) = (m ((c : Thread nD τ).loc main_arg6)) := by
  funext y
  show V m c main_v2 (((cfg0.win 6).blk t).view.emb y) = _
  rw [V_W2]
  refine congrArg _ (funext fun a => Fin.ext ?_)
  exact win0_6.rect_emb_val_of_index_zero t a (idx_resident t a).2.2.2.2.2.1 y

theorem blk7_eq (c : Dev nD) (t : Fin cfg0.N) : (iblk m c 7 t : S1x1024.Idx → EReal) = shapeCast S1x1024 (m ((c : Thread nD τ).loc main_arg7)) shapeCasts_S1024_S1x1024 := by
  funext y
  show V m c main_v8 (((cfg0.win 7).blk t).view.emb y) = _
  rw [V_g2]
  refine congrArg _ (funext fun a => Fin.ext ?_)
  exact win0_7.rect_emb_val_of_index_zero t a (idx_resident t a).2.2.2.2.2.2.1 y

theorem blk8_eq (c : Dev nD) (t : Fin cfg0.N) : (iblk m c 8 t : S1x1024.Idx → EReal) = shapeCast S1x1024 (m ((c : Thread nD τ).loc main_arg8)) shapeCasts_S1024_S1x1024 := by
  funext y
  show V m c main_v9 (((cfg0.win 8).blk t).view.emb y) = _
  rw [V_be2]
  refine congrArg _ (funext fun a => Fin.ext ?_)
  exact win0_8.rect_emb_val_of_index_zero t a (idx_resident t a).2.2.2.2.2.2.2.1 y

theorem blk9_eq (c : Dev nD) (t : Fin cfg0.N) : (iblk m c 9 t : S1024x1024.Idx → EReal) = (m ((c : Thread nD τ).loc main_arg9)) := by
  funext y
  show V m c main_v3 (((cfg0.win 9).blk t).view.emb y) = _
  rw [V_W3]
  refine congrArg _ (funext fun a => Fin.ext ?_)
  exact win0_9.rect_emb_val_of_index_zero t a (idx_resident t a).2.2.2.2.2.2.2.2.1 y

theorem blk10_eq (c : Dev nD) (t : Fin cfg0.N) : (iblk m c 10 t : S1x1024.Idx → EReal) = shapeCast S1x1024 (m ((c : Thread nD τ).loc main_arg10)) shapeCasts_S1024_S1x1024 := by
  funext y
  show V m c main_v10 (((cfg0.win 10).blk t).view.emb y) = _
  rw [V_g3]
  refine congrArg _ (funext fun a => Fin.ext ?_)
  exact win0_10.rect_emb_val_of_index_zero t a (idx_resident t a).2.2.2.2.2.2.2.2.2.1 y

theorem blk11_eq (c : Dev nD) (t : Fin cfg0.N) : (iblk m c 11 t : S1x1024.Idx → EReal) = shapeCast S1x1024 (m ((c : Thread nD τ).loc main_arg11)) shapeCasts_S1024_S1x1024 := by
  funext y
  show V m c main_v11 (((cfg0.win 11).blk t).view.emb y) = _
  rw [V_be3]
  refine congrArg _ (funext fun a => Fin.ext ?_)
  exact win0_11.rect_emb_val_of_index_zero t a (idx_resident t a).2.2.2.2.2.2.2.2.2.2.1 y

theorem blk12_eq (c : Dev nD) (t : Fin cfg0.N) : (iblk m c 12 t : S1024x1.Idx → EReal) = (m ((c : Thread nD τ).loc main_arg12)) := by
  funext y
  show V m c main_v4 (((cfg0.win 12).blk t).view.emb y) = _
  rw [V_Wout]
  refine congrArg _ (funext fun a => Fin.ext ?_)
  exact win0_12.rect_emb_val_of_index_zero t a (idx_resident t a).2.2.2.2.2.2.2.2.2.2.2.1 y

theorem blk13_eq (c : Dev nD) (t : Fin cfg0.N) : (iblk m c 13 t : S1x1.Idx → EReal) = shapeCast S1x1 (m ((c : Thread nD τ).loc main_arg13)) shapeCasts_S1_S1x1 := by
  funext y
  show V m c main_v12 (((cfg0.win 13).blk t).view.emb y) = _
  rw [V_bout]
  refine congrArg _ (funext fun a => Fin.ext ?_)
  exact win0_13.rect_emb_val_of_index_zero t a (idx_resident t a).2.2.2.2.2.2.2.2.2.2.2.2 y

/-! ## The gain and bias windows read as rows -/

theorem row2_eq (c : Dev nD) (t : Fin cfg0.N) : rowOf (iblk m c 2 t : S1x1024.Idx → EReal) 0 = vecOf (m ((c : Thread nD τ).loc main_arg2)) :=
  (congrArg (fun v => rowOf v 0) (blk2_eq m c t)).trans (rowOf_reshape _)
theorem row4_eq (c : Dev nD) (t : Fin cfg0.N) : rowOf (iblk m c 4 t : S1x1024.Idx → EReal) 0 = vecOf (m ((c : Thread nD τ).loc main_arg4)) :=
  (congrArg (fun v => rowOf v 0) (blk4_eq m c t)).trans (rowOf_reshape _)
theorem row5_eq (c : Dev nD) (t : Fin cfg0.N) : rowOf (iblk m c 5 t : S1x1024.Idx → EReal) 0 = vecOf (m ((c : Thread nD τ).loc main_arg5)) :=
  (congrArg (fun v => rowOf v 0) (blk5_eq m c t)).trans (rowOf_reshape _)
theorem row7_eq (c : Dev nD) (t : Fin cfg0.N) : rowOf (iblk m c 7 t : S1x1024.Idx → EReal) 0 = vecOf (m ((c : Thread nD τ).loc main_arg7)) :=
  (congrArg (fun v => rowOf v 0) (blk7_eq m c t)).trans (rowOf_reshape _)
theorem row8_eq (c : Dev nD) (t : Fin cfg0.N) : rowOf (iblk m c 8 t : S1x1024.Idx → EReal) 0 = vecOf (m ((c : Thread nD τ).loc main_arg8)) :=
  (congrArg (fun v => rowOf v 0) (blk8_eq m c t)).trans (rowOf_reshape _)
theorem row10_eq (c : Dev nD) (t : Fin cfg0.N) : rowOf (iblk m c 10 t : S1x1024.Idx → EReal) 0 = vecOf (m ((c : Thread nD τ).loc main_arg10)) :=
  (congrArg (fun v => rowOf v 0) (blk10_eq m c t)).trans (rowOf_reshape _)
theorem row11_eq (c : Dev nD) (t : Fin cfg0.N) : rowOf (iblk m c 11 t : S1x1024.Idx → EReal) 0 = vecOf (m ((c : Thread nD τ).loc main_arg11)) :=
  (congrArg (fun v => rowOf v 0) (blk11_eq m c t)).trans (rowOf_reshape _)
theorem row13_eq (c : Dev nD) (t : Fin cfg0.N) : rowOf (iblk m c 13 t : S1x1.Idx → EReal) 0 = vecOf (m ((c : Thread nD τ).loc main_arg13)) :=
  (congrArg (fun v => rowOf v 0) (blk13_eq m c t)).trans (rowOf_reshape1 _)

/-! ## What point `t` writes back is block `t` of `G` -/

theorem flushed_eq (c : Dev nD) (t : Fin cfg0.N) :
    (dats m 0 c).flushed 14 t = ((cfg0.win 14).blk t).view.read (Elt Ideal) (Gm m c) := by
  rw [Value.flushed14]
  unfold out0_14
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1024x1) hz, View.ld_unit_zero (S := S1x1) hz]
  funext y
  obtain ⟨p, u, rfl⟩ : ∃ (p : Fin 512) (u : Fin 1), y = ix2 p u := ⟨y 0, y 1, eq_ix2 y⟩
  obtain ⟨-, -, e2, e3⟩ := idx_moving t
  have he : ((cfg0.win 14).blk t).view.emb (ix2 p u)
      = ix2 (⟨t.val * 512 + p.val, by have := lt128 t; have := p.isLt; omega⟩ : Fin 65536) u := funext fun a => Fin.ext (by
    match a with
    | ⟨0, _⟩ => show win0_14.index t (0 : Fin 2) * 512 + 1 * p.val = t.val * 512 + p.val; rw [e2]; omega
    | ⟨1, _⟩ => show win0_14.index t (1 : Fin 2) * 1 + 1 * u.val = u.val; rw [e3]; omega)
  refine (congrFun (body_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) p) u).trans ?_
  show _ = Gm m c (((cfg0.win 14).blk t).view.emb (ix2 p u))
  rw [he]
  have r0 : rowOf (iblk m c 0 t) p
      = rowOf (m ((c : Thread nD τ).loc main_arg0)) (⟨t.val * 512 + p.val, by have := lt128 t; have := p.isLt; omega⟩ : Fin 65536) :=
    funext fun k => blk0_apply m c t p k
  rw [r0, blk1_eq, row2_eq, blk3_eq, row4_eq, row5_eq, blk6_eq, row7_eq, row8_eq, blk9_eq, row10_eq, row11_eq, blk12_eq, row13_eq]
  rfl

/-! ## The blocks tile the result -/

/-- An index of the result is in point `t`'s block iff each coordinate is in the block's range on its axis. -/
theorem mem_blk (t : Fin cfg0.N) (i : S65536x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_v13).slice (win0_14.rect t)).set ↔ _
  rw [View.set_slice_whole, Rect.mem_set_unit]
  exact Iff.rfl

/-- Row `r` of the result lies in the block of point `r / 512`. -/
theorem cover (i : S65536x1.Idx) : ∃ t : Fin cfg0.N, (cfg0.win 14).flush t = true ∧ i ∈ ((cfg0.win 14).blk t).view.set := by
  have hi0 : (i 0).val < 65536 := (i 0).isLt
  have hi1 : (i 1).val < 1 := (i 1).isLt
  have hq : (i 0).val / 512 < cfg0.N := lt_of_lt_of_eq (by omega : (i 0).val / 512 < 128) N_0.symm
  obtain ⟨-, -, e2, e3⟩ := idx_moving ⟨(i 0).val / 512, hq⟩
  refine ⟨⟨(i 0).val / 512, hq⟩, flush0_14 _, ?_⟩
  rw [mem_blk]
  intro a
  match a with
  | ⟨0, _⟩ =>
    show win0_14.index ⟨(i 0).val / 512, hq⟩ (0 : Fin 2) * 512 ≤ (i 0).val ∧ (i 0).val < win0_14.index ⟨(i 0).val / 512, hq⟩ (0 : Fin 2) * 512 + 512
    rw [e2]; show (i 0).val / 512 * 512 ≤ (i 0).val ∧ (i 0).val < (i 0).val / 512 * 512 + 512; omega
  | ⟨1, _⟩ =>
    show win0_14.index ⟨(i 0).val / 512, hq⟩ (1 : Fin 2) * 1 ≤ (i 1).val ∧ (i 1).val < win0_14.index ⟨(i 0).val / 512, hq⟩ (1 : Fin 2) * 1 + 1
    rw [e3]; omega

/-- The result array after the run is `G` of the arguments. -/
theorem final (c : Dev nD) : (dats m 0 c).arrAt 14 cfg0.N = Gm m c :=
  (dats m 0 c).arrAt_eq_of_cover 14 (Gm m c) (fun t _ => flushed_eq m c t) cover

/-! ## The run, read -/

/-- Every weakly fair execution of the kernel program ends with the result array at `G` of the arguments and the arguments unchanged. -/
theorem run : θ_run defs (onTc (τ := τ) (main (F := Ideal))) ⟨m, fun _ => 0, ρ⟩ fun r => ∀ c : Dev nD,
      r.2.mem ((c : Thread nD τ).loc main_v13) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.ArrayValue

end
-- ==== Proof.RefRows.lean ====
/-
  The reference's arithmetic, stage by stage and row by row.

  The reference works on the whole `[65536, 1024]` arrays at once, and each of its steps acts on every row independently,
  as the kernel's do on a block: the host's product with a weight matrix is, in row `r`, the dense layer of row `r`; the
  host's sum over axis 1 is the row's sum added to the initial value, the zero word, which is the extended real `0`; the
  `[65536]` vector of sums laid out as a column, divided by the splat of the row length, is the column of means; a
  `[65536, 1]` column broadcast to `[65536, 1024]` repeats each row's entry along the row; a `[1024]` gain or bias laid out as
  one row and broadcast down the rows gives every row the same gain and bias. The host's quotient and reciprocal
  square root are the same functions of extended reals as the kernel's. So row `r` of the reference's result is the row
  function of row `r` of its first argument, and the whole result is the array function `G` of the arguments.
-/
import proofs.«138843_j83863531422003_1_alg».proof.Proof.RefRead
import proofs.«138843_j83863531422003_1_alg».proof.Proof.RowSpec
import proofs.«138843_j83863531422003_1_alg».proof.Proof.LibDense

noncomputable section

namespace Cert.ReferenceIdeal.Rows

open Cert.ReferenceIdeal Cert.ReferenceIdeal.Gen Cert.ReferenceIdeal.Read Idealize.ShloMosaic Idealize.ShloMosaic.ValueIdx Cert.RowMlp

/-! ## The reference's steps on whole arrays -/

/-- A `[1024]` gain or bias laid out as one row and repeated down the 65536 rows. -/
def hRows (b : FVec Ideal S1024 .f32) : FVec Ideal S65536x1024 .f32 :=
  broadcastInDim S65536x1024 ![0, 1] bcast_S1x1024_S65536x1024_0_1 (broadcastInDim S1x1024 ![1] bcast_S1024_S1x1024_1 b)

/-- Entrywise maximum with the zero splat. -/
def hRelu (y : FVec Ideal S65536x1024 .f32) : FVec Ideal S65536x1024 .f32 :=
  maximumf y (broadcastInDim S65536x1024 ![] bcast_S_S65536x1024 (constant (F := Ideal) S_ .f32 0x00000000#32))

/-- The column of the rows' sums. -/
def hSumCol (y : FVec Ideal S65536x1024 .f32) : FVec Ideal S65536x1 .f32 :=
  broadcastInDim S65536x1 ![0] bcast_S65536_S65536x1_0
    (Host.reduceAdd (F := Ideal) y (constant (F := Ideal) S_ .f32 0x00000000#32) reducesTo_S65536x1024_S65536_d1 h_S_)

/-- The column holding one word's number in every row. -/
def hSplatCol (w : BitVec 32) : FVec Ideal S65536x1 .f32 :=
  broadcastInDim S65536x1 ![] bcast_S_S65536x1 (constant (F := Ideal) S_ .f32 w)

/-- The column of the rows' means. -/
def hMeanCol (y : FVec Ideal S65536x1024 .f32) : FVec Ideal S65536x1 .f32 :=
  Host.divf (F := Ideal) (hSumCol y) (hSplatCol 0x44800000#32)

/-- A column repeated along the rows. -/
def hSpread (v : FVec Ideal S65536x1 .f32) : FVec Ideal S65536x1024 .f32 :=
  broadcastInDim S65536x1024 ![0, 1] bcast_S65536x1_S65536x1024_0_1 v

/-- The array minus its column of means. -/
def hCentred (y : FVec Ideal S65536x1024 .f32) : FVec Ideal S65536x1024 .f32 := subf y (hSpread (hMeanCol y))

/-- The array normalised row by row. -/
def hNormed (y : FVec Ideal S65536x1024 .f32) : FVec Ideal S65536x1024 .f32 :=
  mulf (hCentred y) (hSpread (Host.rsqrt (F := Ideal) (addf (hMeanCol (mulf (hCentred y) (hCentred y))) (hSplatCol 0x358637BD#32))))

/-- One hidden layer on the whole array. -/
def hHidden (h : FVec Ideal S65536x1024 .f32) (W : FVec Ideal S1024x1024 .f32) (g b : FVec Ideal S1024 .f32) : FVec Ideal S65536x1024 .f32 :=
  hRelu (addf (mulf (hNormed (Host.dotGeneral dot_S65536x1024_S1024x1024_S65536x1024_1_0_0_1_n_n none h W)) (hRows g)) (hRows b))

/-- The output layer's bias and clamp on the `[65536, 1]` column. -/
def hOut (z : FVec Ideal S65536x1 .f32) (b : FVec Ideal S1 .f32) : FVec Ideal S65536x1 .f32 :=
  maximumf (addf z (broadcastInDim S65536x1 ![0, 1] bcast_S1x1_S65536x1_0_1 (broadcastInDim S1x1 ![1] bcast_S1_S1x1_1 b)))
    (broadcastInDim S65536x1 ![] bcast_S_S65536x1 (constant (F := Ideal) S_ .f32 0x00000000#32))

/-! ## Each step, row by row -/

theorem hRows_apply (b : FVec Ideal S1024 .f32) (r : Fin 65536) (j : Fin 1024) : hRows b (ix2 r j) = vecOf b j :=
  (broadcastInDim_apply _ bcast_S1x1024_S65536x1024_0_1 _ (ix2 r j) (ix2 (0 : Fin 1) j) (fun a => match a with
    | ⟨0, _⟩ => by show 0 = if (1 : Nat) = 1 then 0 else r.val; rw [if_pos rfl]
    | ⟨1, _⟩ => by show j.val = if (1024 : Nat) = 1 then 0 else j.val; rw [if_neg (by decide)])).trans
  (broadcastInDim_apply _ bcast_S1024_S1x1024_1 b (ix2 (0 : Fin 1) j) (ix1 j) (fun a => match a with
    | ⟨0, _⟩ => by show j.val = if (1024 : Nat) = 1 then 0 else j.val; rw [if_neg (by decide)]))

theorem zeroSplat_apply (i : S65536x1024.Idx) :
    broadcastInDim S65536x1024 ![] bcast_S_S65536x1024 (constant (F := Ideal) S_ .f32 0x00000000#32) i = wZero :=
  broadcastInDim_apply _ bcast_S_S65536x1024 _ i ix0 (fun a => a.elim0)

theorem hSplatCol_apply (w : BitVec 32) (i : S65536x1.Idx) : hSplatCol w i = Ideal.ofBits .f32 w :=
  broadcastInDim_apply _ bcast_S_S65536x1 _ i ix0 (fun a => a.elim0)

theorem hSpread_apply (v : FVec Ideal S65536x1 .f32) (r : Fin 65536) (j : Fin 1024) : hSpread v (ix2 r j) = v (ix2 r (0 : Fin 1)) :=
  broadcastInDim_apply _ bcast_S65536x1_S65536x1024_0_1 v (ix2 r j) (ix2 r (0 : Fin 1)) (fun a => match a with
    | ⟨0, _⟩ => by show r.val = if (65536 : Nat) = 1 then 0 else r.val; rw [if_neg (by decide)]
    | ⟨1, _⟩ => by show 0 = if (1 : Nat) = 1 then 0 else j.val; rw [if_pos rfl])

theorem hSumCol_apply (y : FVec Ideal S65536x1024 .f32) (r : Fin 65536) (u : Fin 1) : hSumCol y (ix2 r u) = ∑ k : Fin 1024, y (ix2 r k) := by
  refine (broadcastInDim_apply _ bcast_S65536_S65536x1_0 _ (ix2 r u) (ix1 r) (fun a => match a with
    | ⟨0, _⟩ => by show r.val = if (65536 : Nat) = 1 then 0 else r.val; rw [if_neg (by decide)])).trans ?_
  simp only [Host.reduceAdd, Ideal.hostReduceAdd_def]
  rw [Ideal.hostReduceAdd_single reducesTo_S65536x1024_S65536_d1 (by decide)]
  show Ideal.ofBits .f32 0x00000000#32 + _ = _
  rw [Ideal.ofBits_zero_f32, zero_add]
  exact Finset.sum_congr rfl fun k _ => congrArg y (funext fun a => Fin.ext (by match a with | ⟨0, _⟩ => rfl | ⟨1, _⟩ => rfl))

theorem hMeanCol_apply (y : FVec Ideal S65536x1024 .f32) (r : Fin 65536) (u : Fin 1) : hMeanCol y (ix2 r u) = mean (rowOf y r) := by
  show FloatOps.hostDivf (hSumCol y (ix2 r u)) (hSplatCol 0x44800000#32 (ix2 r u)) = _
  rw [Ideal.hostDivf_def, hSumCol_apply, hSplatCol_apply]
  rfl

theorem hCentred_apply (y : FVec Ideal S65536x1024 .f32) (r : Fin 65536) (j : Fin 1024) : hCentred y (ix2 r j) = centred (rowOf y r) j := by
  show y (ix2 r j) - hSpread (hMeanCol y) (ix2 r j) = _
  rw [hSpread_apply, hMeanCol_apply]
  rfl

theorem hNormed_row (y : FVec Ideal S65536x1024 .f32) (r : Fin 65536) : rowOf (hNormed y) r = normed (rowOf y r) := by
  funext j
  show hCentred y (ix2 r j) * hSpread (Host.rsqrt (F := Ideal) (addf (hMeanCol (mulf (hCentred y) (hCentred y))) (hSplatCol 0x358637BD#32))) (ix2 r j) = _
  rw [hSpread_apply, hCentred_apply]
  show centred (rowOf y r) j * FloatOps.hostUnary .rsqrt (hMeanCol (mulf (hCentred y) (hCentred y)) (ix2 r (0 : Fin 1)) + hSplatCol 0x358637BD#32 (ix2 r (0 : Fin 1))) = _
  rw [Ideal.hostUnary_rsqrt_def, hMeanCol_apply, hSplatCol_apply]
  have hsq : rowOf (mulf (hCentred y) (hCentred y)) r = fun k => centred (rowOf y r) k * centred (rowOf y r) k :=
    funext fun k => by
      show hCentred y (ix2 r k) * hCentred y (ix2 r k) = _
      rw [hCentred_apply]
  rw [hsq]
  rfl

theorem hRelu_row (y : FVec Ideal S65536x1024 .f32) (r : Fin 65536) : rowOf (hRelu y) r = relu (rowOf y r) := by
  funext j
  show max (y (ix2 r j)) (broadcastInDim S65536x1024 ![] bcast_S_S65536x1024 (constant (F := Ideal) S_ .f32 0x00000000#32) (ix2 r j)) = _
  rw [zeroSplat_apply]
  rfl

theorem dense0_row (x : FVec Ideal S65536x512 .f32) (w : FVec Ideal S512x1024 .f32) (r : Fin 65536) :
    rowOf (Host.dotGeneral dot_S65536x512_S512x1024_S65536x1024_1_0_0_1_n_n none x w) r = dense (rowOf x r) (matOf w) :=
  funext fun j => Cert.Lib.Dense.dotGeneral_apply dot_S65536x512_S512x1024_S65536x1024_1_0_0_1_n_n rfl rfl lhs_main_v0_0 lhs_main_v0_1 rhs_main_v0_0 rhs_main_v0_1 none x w r j

theorem dense1_row (h : FVec Ideal S65536x1024 .f32) (w : FVec Ideal S1024x1024 .f32) (r : Fin 65536) :
    rowOf (Host.dotGeneral dot_S65536x1024_S1024x1024_S65536x1024_1_0_0_1_n_n none h w) r = dense (rowOf h r) (matOf w) :=
  funext fun j => Cert.Lib.Dense.dotGeneral_apply dot_S65536x1024_S1024x1024_S65536x1024_1_0_0_1_n_n rfl rfl lhs_main_v5_0 lhs_main_v5_1 rhs_main_v5_0 rhs_main_v5_1 none h w r j

theorem dense2_row (h : FVec Ideal S65536x1024 .f32) (w : FVec Ideal S1024x1 .f32) (r : Fin 65536) :
    rowOf (Host.dotGeneral dot_S65536x1024_S1024x1_S65536x1_1_0_0_1_n_n none h w) r = dense (rowOf h r) (matOf w) :=
  funext fun j => Cert.Lib.Dense.dotGeneral_apply dot_S65536x1024_S1024x1_S65536x1_1_0_0_1_n_n rfl rfl lhs_main_v83_0 lhs_main_v83_1 rhs_main_v83_0 rhs_main_v83_1 none h w r j

theorem hHidden_row (h : FVec Ideal S65536x1024 .f32) (W : FVec Ideal S1024x1024 .f32) (g b : FVec Ideal S1024 .f32) (r : Fin 65536) :
    rowOf (hHidden h W g b) r = hidden (rowOf h r) (matOf W) (vecOf g) (vecOf b) := by
  unfold hHidden
  rw [hRelu_row]
  have e : rowOf (addf (mulf (hNormed (Host.dotGeneral dot_S65536x1024_S1024x1024_S65536x1024_1_0_0_1_n_n none h W)) (hRows g)) (hRows b)) r
      = shift (scale (rowOf (hNormed (Host.dotGeneral dot_S65536x1024_S1024x1024_S65536x1024_1_0_0_1_n_n none h W)) r) (vecOf g)) (vecOf b) :=
    funext fun j => by
      show hNormed (Host.dotGeneral dot_S65536x1024_S1024x1024_S65536x1024_1_0_0_1_n_n none h W) (ix2 r j) * hRows g (ix2 r j) + hRows b (ix2 r j) = _
      rw [hRows_apply, hRows_apply]
      rfl
  rw [e, hNormed_row, dense1_row]
  rfl

theorem hOut_row (z : FVec Ideal S65536x1 .f32) (b : FVec Ideal S1 .f32) (r : Fin 65536) : rowOf (hOut z b) r = relu (shift (rowOf z r) (vecOf b)) := by
  funext u
  obtain rfl : u = 0 := Subsingleton.elim _ _
  show max (z (ix2 r 0) + broadcastInDim S65536x1 ![0, 1] bcast_S1x1_S65536x1_0_1 (broadcastInDim S1x1 ![1] bcast_S1_S1x1_1 b) (ix2 r (0 : Fin 1)))
    (broadcastInDim S65536x1 ![] bcast_S_S65536x1 (constant (F := Ideal) S_ .f32 0x00000000#32) (ix2 r (0 : Fin 1))) = _
  rw [broadcastInDim_apply _ bcast_S1x1_S65536x1_0_1 _ (ix2 r (0 : Fin 1)) (ix2 (0 : Fin 1) (0 : Fin 1)) (fun a => match a with
      | ⟨0, _⟩ => by show 0 = if (1 : Nat) = 1 then 0 else r.val; rw [if_pos rfl]
      | ⟨1, _⟩ => by show 0 = if (1 : Nat) = 1 then 0 else 0; rw [if_pos rfl]),
    broadcastInDim_apply _ bcast_S1_S1x1_1 b (ix2 (0 : Fin 1) (0 : Fin 1)) (ix1 (0 : Fin 1)) (fun a => match a with
      | ⟨0, _⟩ => by show 0 = if (1 : Nat) = 1 then 0 else 0; rw [if_pos rfl]),
    broadcastInDim_apply _ bcast_S_S65536x1 _ (ix2 r (0 : Fin 1)) ix0 (fun a => a.elim0)]
  rfl

/-! ## The stages are compositions of the steps -/

theorem stage_v4 (x0 : FVec Ideal S65536x512 .f32) (x1 : FVec Ideal S512x1024 .f32) (x2 : FVec Ideal S1024 .f32) :
    val_main_v4 (F := Ideal) x0 x1 x2 = hRelu (addf (Host.dotGeneral dot_S65536x512_S512x1024_S65536x1024_1_0_0_1_n_n none x0 x1) (hRows x2)) := rfl

theorem stage_v30 (x0 : FVec Ideal S65536x512 .f32) (x1 : FVec Ideal S512x1024 .f32) (x2 : FVec Ideal S1024 .f32)
    (x3 : FVec Ideal S1024x1024 .f32) (x4 x5 : FVec Ideal S1024 .f32) :
    val_main_v30 (F := Ideal) x0 x1 x2 x3 x4 x5 = hHidden (val_main_v4 (F := Ideal) x0 x1 x2) x3 x4 x5 := rfl

theorem stage_v56 (x0 : FVec Ideal S65536x512 .f32) (x1 : FVec Ideal S512x1024 .f32) (x2 : FVec Ideal S1024 .f32)
    (x3 : FVec Ideal S1024x1024 .f32) (x4 x5 : FVec Ideal S1024 .f32) (x6 : FVec Ideal S1024x1024 .f32) (x7 x8 : FVec Ideal S1024 .f32) :
    val_main_v56 (F := Ideal) x0 x1 x2 x3 x4 x5 x6 x7 x8 = hHidden (val_main_v30 (F := Ideal) x0 x1 x2 x3 x4 x5) x6 x7 x8 := rfl

theorem stage_v82 (x0 : FVec Ideal S65536x512 .f32) (x1 : FVec Ideal S512x1024 .f32) (x2 : FVec Ideal S1024 .f32)
    (x3 : FVec Ideal S1024x1024 .f32) (x4 x5 : FVec Ideal S1024 .f32) (x6 : FVec Ideal S1024x1024 .f32) (x7 x8 : FVec Ideal S1024 .f32)
    (x9 : FVec Ideal S1024x1024 .f32) (x10 x11 : FVec Ideal S1024 .f32) :
    val_main_v82 (F := Ideal) x0 x1 x2 x3 x4 x5 x6 x7 x8 x9 x10 x11 = hHidden (val_main_v56 (F := Ideal) x0 x1 x2 x3 x4 x5 x6 x7 x8) x9 x10 x11 := rfl

theorem stage_v87 (x0 : FVec Ideal S65536x512 .f32) (x1 : FVec Ideal S512x1024 .f32) (x2 : FVec Ideal S1024 .f32)
    (x3 : FVec Ideal S1024x1024 .f32) (x4 x5 : FVec Ideal S1024 .f32) (x6 : FVec Ideal S1024x1024 .f32) (x7 x8 : FVec Ideal S1024 .f32)
    (x9 : FVec Ideal S1024x1024 .f32) (x10 x11 : FVec Ideal S1024 .f32) (x12 : FVec Ideal S1024x1 .f32) (x13 : FVec Ideal S1 .f32) :
    val_main_v87 (F := Ideal) x0 x1 x2 x3 x4 x5 x6 x7 x8 x9 x10 x11 x12 x13
      = hOut (Host.dotGeneral (φ₁ := .f32) dot_S65536x1024_S1024x1_S65536x1_1_0_0_1_n_n none (val_main_v82 (F := Ideal) x0 x1 x2 x3 x4 x5 x6 x7 x8 x9 x10 x11) x12) x13 := rfl

/-! ## The reference's result is `G` of its arguments -/

theorem ref_row (x0 : FVec Ideal S65536x512 .f32) (x1 : FVec Ideal S512x1024 .f32) (x2 : FVec Ideal S1024 .f32)
    (x3 : FVec Ideal S1024x1024 .f32) (x4 x5 : FVec Ideal S1024 .f32) (x6 : FVec Ideal S1024x1024 .f32) (x7 x8 : FVec Ideal S1024 .f32)
    (x9 : FVec Ideal S1024x1024 .f32) (x10 x11 : FVec Ideal S1024 .f32) (x12 : FVec Ideal S1024x1 .f32) (x13 : FVec Ideal S1 .f32) (r : Fin 65536) :
    rowOf (val_main_v87 (F := Ideal) x0 x1 x2 x3 x4 x5 x6 x7 x8 x9 x10 x11 x12 x13) r
      = mlpRow (rowOf x0 r) (matOf x1) (vecOf x2) (matOf x3) (vecOf x4) (vecOf x5) (matOf x6) (vecOf x7) (vecOf x8)
          (matOf x9) (vecOf x10) (vecOf x11) (matOf x12) (vecOf x13) := by
  have e0 : rowOf (addf (Host.dotGeneral dot_S65536x512_S512x1024_S65536x1024_1_0_0_1_n_n none x0 x1) (hRows x2)) r = shift (dense (rowOf x0 r) (matOf x1)) (vecOf x2) :=
    funext fun j => by
      show Host.dotGeneral dot_S65536x512_S512x1024_S65536x1024_1_0_0_1_n_n none x0 x1 (ix2 r j) + hRows x2 (ix2 r j) = _
      rw [hRows_apply]
      exact congrArg (· + vecOf x2 j) (congrFun (dense0_row x0 x1 r) j)
  rw [stage_v87, hOut_row, dense2_row, stage_v82, hHidden_row, stage_v56, hHidden_row, stage_v30, hHidden_row, stage_v4, hRelu_row, e0]
  rfl

theorem ref_eq (x0 : FVec Ideal S65536x512 .f32) (x1 : FVec Ideal S512x1024 .f32) (x2 : FVec Ideal S1024 .f32)
    (x3 : FVec Ideal S1024x1024 .f32) (x4 x5 : FVec Ideal S1024 .f32) (x6 : FVec Ideal S1024x1024 .f32) (x7 x8 : FVec Ideal S1024 .f32)
    (x9 : FVec Ideal S1024x1024 .f32) (x10 x11 : FVec Ideal S1024 .f32) (x12 : FVec Ideal S1024x1 .f32) (x13 : FVec Ideal S1 .f32) :
    val_main_v87 (F := Ideal) x0 x1 x2 x3 x4 x5 x6 x7 x8 x9 x10 x11 x12 x13 = G x0 x1 x2 x3 x4 x5 x6 x7 x8 x9 x10 x11 x12 x13 := by
  funext i
  obtain ⟨r, u, rfl⟩ : ∃ (r : Fin 65536) (u : Fin 1), i = ix2 r u := ⟨i 0, i 1, eq_ix2 i⟩
  exact congrFun (ref_row x0 x1 x2 x3 x4 x5 x6 x7 x8 x9 x10 x11 x12 x13 r) u

end Cert.ReferenceIdeal.Rows

end
-- ==== Proof.lean ====
/-
  The kernel and its reference compute the same function on the extended reals.

  Both programs send a `[65536, 512]` array through a dense layer with bias and a clamp at zero, three hidden layers (dense,
  row normalisation to mean zero and unit variance with an offset under the square root, gain, bias, clamp) and a dense
  layer to one column with bias and clamp. Every step acts on each row separately, so the result's row `r` is one row
  function of the input's row `r` (Proof/RowSpec.lean). The kernel runs over a grid of 128 points, each handling 512 rows
  with the weights resident; its matrix products accumulate into zero, its format changes are the identity on the extended
  reals, and its lane sums are the rows' sums: the block a point writes back is the row function of its 512 input rows
  (Proof/KernelRows.lean, Proof/KernelBody.lean), and the blocks tile the result (Proof/KernelArray.lean). The reference
  does the same steps on whole arrays, its sums starting from the zero word (Proof/RefRows.lean). The two programs spell
  the row length and the variance offset by the same words and divide and take reciprocal square roots by the same
  functions, so no algebraic law beyond reading each operation at an index is needed, and the finiteness of the inputs
  is not used. The idealization rewrote nothing, so the kernel's idealization claim is trivial; the frames of the two
  kernel programs are the generated ones, and the reference's frame is its run with the result dropped.
-/
import proofs.«138843_j83863531422003_1_alg».proof.Defs
import proofs.«138843_j83863531422003_1_alg».proof.Proof.Gen.Kernel
import proofs.«138843_j83863531422003_1_alg».proof.Proof.Gen.Kernel.Skeleton
import proofs.«138843_j83863531422003_1_alg».proof.Proof.Gen.Kernel.Launch
import proofs.«138843_j83863531422003_1_alg».proof.Proof.Gen.Kernel.Points
import proofs.«138843_j83863531422003_1_alg».proof.Proof.Gen.Kernel.Frame
import proofs.«138843_j83863531422003_1_alg».proof.Proof.Gen.KernelIdeal
import proofs.«138843_j83863531422003_1_alg».proof.Proof.Gen.KernelIdeal.Skeleton
import proofs.«138843_j83863531422003_1_alg».proof.Proof.Gen.KernelIdeal.Launch
import proofs.«138843_j83863531422003_1_alg».proof.Proof.Gen.KernelIdeal.Points
import proofs.«138843_j83863531422003_1_alg».proof.Proof.Gen.KernelIdeal.Frame
import proofs.«138843_j83863531422003_1_alg».proof.Proof.Gen.KernelIdeal.Value
import proofs.«138843_j83863531422003_1_alg».proof.Proof.Gen.ReferenceIdeal
import proofs.«138843_j83863531422003_1_alg».proof.Proof.RefRun
import proofs.«138843_j83863531422003_1_alg».proof.Proof.RefRead
import proofs.«138843_j83863531422003_1_alg».proof.Proof.Gen.Pre_finite_inputs
import proofs.«138843_j83863531422003_1_alg».proof.Proof.KernelArray
import proofs.«138843_j83863531422003_1_alg».proof.Proof.RefRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `G` of the arguments, which agree. -/
theorem algebraic : Cert.algebraic_KernelIdeal_ReferenceIdeal := by
  intro m ρ m' ρ' _ hagree
  refine ⟨fun c => Cert.KernelIdeal.ArrayValue.Gm m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v87_eq, Cert.ReferenceIdeal.Rows.ref_eq, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
